-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8192x4096 .f32) (main_arg1 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096 .f32 := Host.absf main_arg1
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_c_1 : IVec S_ 1 := constantI S_ 1 1#1
  let main_v7 : IVec S_ 1 := (fun x v => Host.reduce IntOp.andi x v reducesTo_S4096_S_d0 h_S_) main_v6 main_c_1
  let main_v8 : IVec S_ 1 := andi main_v3 main_v7
  main_v8
-- ==== Kernel.lean ====
abbrev S8192x4096 : Shape := ⟨2, ![8192, 4096]⟩
abbrev S4096 : Shape := ⟨1, ![4096]⟩
abbrev S1x4096 : Shape := ⟨2, ![1, 4096]⟩
abbrev S512x4096 : Shape := ⟨2, ![512, 4096]⟩

abbrev nBuf : Space → Nat
  | .hbm => 4
  | .vmem => 5
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S1x4096, .f32⟩
  | .hbm, ⟨3, _⟩ => ⟨S8192x4096, .f32⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S512x4096, .f32⟩
  | .local _ .vmem, ⟨4, _⟩ => ⟨S512x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S4096_S1x4096 : S4096.ShapeCasts S1x4096
  inb_S512x4096_S512x4096_0_0 : ∀ a, (![0, 0] : Fin 2 → Nat) a + S512x4096.size a ≤ S512x4096.size a
  h_S512x4096 : 0 < S512x4096.numel
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S512x4096 : S1x4096.Broadcasts S512x4096
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .f32 = 32 ∨ (Rect.block (s := S8192x4096) S512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x4096.size a ≤ S1x4096.size a
  hwx0_1 : ∀ i : grid0.Coords, EltTy.bits .f32 = 32 ∨ (Rect.block (s := S1x4096) S1x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x4096.size a ≤ S8192x4096.size a
  hwx0_2 : ∀ i : grid0.Coords, EltTy.bits .f32 = 32 ∨ (Rect.block (s := S8192x4096) S512x4096.size (cc0_transform_2 i) (hinb0_2 i)).WholeWords (EltTy.packing .f32)

variable [Facts₀]

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where
  halias0_2 : Pipeline.Aliased win0 0 2

variable [Facts]
-- ==== ReferenceIdeal.lean ====
abbrev S8192x4096 : Shape := ⟨2, ![8192, 4096]⟩
abbrev S4096 : Shape := ⟨1, ![4096]⟩
abbrev S1x4096 : Shape := ⟨2, ![1, 4096]⟩

abbrev nBuf : Space → Nat
  | .hbm => 5
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S1x4096, .f32⟩
  | .hbm, ⟨3, _⟩ => ⟨S8192x4096, .f32⟩
  | .hbm, ⟨4, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)

variable [Facts₀]

class Facts : Prop extends Facts₀ where

variable [Facts]
-- ==== Proof.Spec.lean ====
/-
  What both programs compute. The input is a matrix `x` of 8192 rows and 4096 columns and a vector `w` of 4096
  weights, one per column; the result is the matrix whose entry in row `r` and column `j` is `x[r, j] * w[j]`:
  every column multiplied through by its weight. No sum is taken and no factor is moved, so the two programs agree
  entry by entry as terms, at every float instance, and the finiteness of the inputs is never used.
-/
import Idealize.ShloMosaic.PureOps

noncomputable section

namespace Cert.ColumnScale

open Idealize.ShloMosaic

/-- The index set of the matrix: 8192 rows, 4096 columns. -/
abbrev Mat : Shape := ⟨2, ![8192, 4096]⟩

/-- The index set of the weights: one per column. -/
abbrev Wts : Shape := ⟨1, ![4096]⟩

/-- The weight that belongs to a matrix entry is the one at the entry's column. -/
abbrev col (i : Mat.Idx) : Wts.Idx := fun a => match a with | ⟨0, _⟩ => ⟨(i 1).val, (i 1).isLt⟩

/-- Each entry of the matrix times the weight of its column. -/
def scaled {F : FTy → Type} [FloatOps F] (x : Mat.Idx → Elt F .f32) (w : Wts.Idx → Elt F .f32) :
    Mat.Idx → Elt F .f32 :=
  fun i => FloatOps.mulf (x i) (w (col i))

end Cert.ColumnScale

end
-- ==== Proof.KernelScale.lean ====
/-
  The kernel's side. The grid has 16 points; point `t` is handed rows `512 t … 512 t + 511` of the matrix (all 4096
  columns) together with the weights laid out as a single row of 4096 entries, and writes back the same rows of the
  result. Inside a point the body multiplies the block of the matrix by the weight row repeated down the 512 rows,
  so the entry in block row `p` and column `q` becomes (block entry at `(p, q)`) times (weight row entry at `(0, q)`).
  Read back through the block's position in the matrix this is `x[512 t + p, q] * w[q]`: block `t` of the column-scaled
  matrix. The 16 blocks are consecutive bands of 512 rows and so cover all 8192 rows; hence the result array ends as
  the column-scaled matrix.
-/
import proofs.«425088_j20194936226016_3_alg».proof.Proof.Gen.KernelIdeal.Value
import proofs.«425088_j20194936226016_3_alg».proof.Proof.Spec
import Idealize.ShloMosaic.Lib.Pipeline.Value
import Idealize.ShloMosaic.Lib.StableHlo.Run

noncomputable section

namespace Cert.KernelIdeal.Scale

open Cert.KernelIdeal Cert.KernelIdeal.Gen Idealize.ShloMosaic Idealize.ShloMosaic.TcCoe Idealize.SL.Sem
open Idealize.ShloMosaic.Pipeline (Dat)
open Cert.ColumnScale (scaled col)

variable {F : FTy → Type} [FloatOps F]
variable (m : (ℓ : Loc nD τ sig) → Buf (Elt F) ℓ) (ρ : Dev nD → PrngReg)

/-! ## One grid point -/

/-- Where an entry of a 512-row block finds its weight in the one-row layout of the weights: row 0, same column. -/
abbrev lane (y : S512x4096.Idx) : S1x4096.Idx := fun a => match a with
  | ⟨0, _⟩ => ⟨0, Nat.one_pos⟩
  | ⟨1, _⟩ => ⟨(y 1).val, (y 1).isLt⟩

theorem zero_offsets : (![0, 0] : Fin 2 → Nat) = fun _ => 0 := funext fun a => by fin_cases a <;> rfl

/-- What the body leaves in the output block, for any block `P0` of the matrix and any weight row `P1`: the block's
    entry times the weight row's entry in the same column. The body's single store covers the whole block, and both
    loads read their whole buffers. -/
theorem body_eq (P0 : Vec F S512x4096 .f32) (P1 : Vec F S1x4096 .f32) :
    out0_2 P0 P1 = fun y => FloatOps.mulf (P0 y) (P1 (lane y)) := by
  unfold out0_2
  funext y
  rw [Value.canon2_eq]
  simp only [View.ld_unit_zero (S := S512x4096) zero_offsets, View.ld_unit_zero (S := S1x4096) zero_offsets]
  show FloatOps.mulf (P0 (Value.ix2_0 y)) (P1 (Value.ix2_1 y)) = _
  congr 2
  funext a; match a with | ⟨0, _⟩ => rfl | ⟨1, _⟩ => rfl

/-! ## The arrays the grid points read -/

/-- Before the grid runs, the weights are laid out as one row of 4096: the same 4096 numbers in the same order. -/
theorem weight_row (c : Dev nD) : (V m c main_v0 : S1x4096.Idx → Elt F .f32)
    = shapeCast S1x4096 (m ((c : Thread nD τ).loc main_arg1)) shapeCasts_S4096_S1x4096 := by
  dsimp only [V, hostOps0]; after_results; rfl

/-- The block positions over the 16 grid points: the matrix block and the result block of point `t` sit at block row
    `t`, block column 0; the weight row is always the block at (0, 0). -/
theorem block_positions : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The matrix block of point `t` at `(p, q)` is the matrix at `(512 t + p, q)`. -/
theorem matrix_block_apply (c : Dev nD) (t : Fin cfg0.N) (y : S512x4096.Idx) (k : S8192x4096.Idx)
    (hk0 : (k 0).val = 512 * t.val + (y 0).val) (hk1 : (k 1).val = (y 1).val) :
    (iblk m c 0 t : Vec F S512x4096 .f32) y
      = (m ((c : Thread nD τ).loc main_arg0) : S8192x4096.Idx → Elt F .f32) k := by
  obtain ⟨e0, e1, -⟩ := block_positions t
  unfold iblk
  rw [View.read_apply]
  show V m c main_arg0 _ = _
  rw [V_main_arg0]
  congr 1
  funext a; apply Fin.ext
  match a with
  | ⟨0, _⟩ => show win0_0.index t 0 * 512 + 1 * (y 0).val = (k 0).val; omega
  | ⟨1, _⟩ => show win0_0.index t 1 * 4096 + 1 * (y 1).val = (k 1).val; omega

/-- The weight row at `(0, q)`, at every point, is the weight `w[q]`: position `q` in the row-major order of one row
    of 4096 is position `q` of the vector. -/
theorem weight_block_apply (c : Dev nD) (t : Fin cfg0.N) (y : S1x4096.Idx) (k : S4096.Idx)
    (hk : (k 0).val = (y 1).val) :
    (iblk m c 1 t : Vec F S1x4096 .f32) y
      = (m ((c : Thread nD τ).loc main_arg1) : S4096.Idx → Elt F .f32) k := by
  obtain ⟨-, -, e2, e3, -⟩ := block_positions t
  unfold iblk
  rw [View.read_apply]
  show (V m c main_v0 : S1x4096.Idx → Elt F .f32) _ = _
  rw [weight_row]
  refine shapeCast_apply _ _ _ k ?_
  rw [Shape.rowMajor_val_one, Shape.rowMajor_val_two]
  have hy0 : (y 0).val < 1 := (y 0).isLt
  show (k 0).val = (win0_1.index t 0 * 1 + 1 * (y 0).val) * 4096 + (win0_1.index t 1 * 4096 + 1 * (y 1).val)
  omega

/-! ## What a point writes back, and the whole result -/

/-- Point `t` writes back block `t` of the column-scaled matrix: at block entry `(p, q)` the body's product is
    `x[512 t + p, q] * w[q]`, and `(512 t + p, q)` is where that entry of the block lies in the result. -/
theorem flushed_eq (c : Dev nD) (t : Fin cfg0.N) :
    (dats m 0 c).flushed 2 t = ((cfg0.win 2).blk t).view.read (Elt F)
      (scaled (m ((c : Thread nD τ).loc main_arg0)) (m ((c : Thread nD τ).loc main_arg1))) := by
  obtain ⟨-, -, -, -, e4, e5⟩ := block_positions t
  rw [Value.flushed2, body_eq]
  funext j
  rw [View.read_apply]
  unfold scaled
  refine congrArg₂ FloatOps.mulf (matrix_block_apply m c t _ _ ?_ ?_) (weight_block_apply m c t _ _ ?_)
  · show win0_2.index t 0 * 512 + 1 * (j 0).val = 512 * t.val + (j 0).val; omega
  · show win0_2.index t 1 * 4096 + 1 * (j 1).val = (j 1).val; omega
  · show win0_2.index t 1 * 4096 + 1 * (j 1).val = (j 1).val; omega

/-- An entry of the result lies in point `t`'s block iff each coordinate is in the block's range on its axis. -/
theorem mem_block (t : Fin cfg0.N) (i : S8192x4096.Idx) :
    i ∈ ((cfg0.win 2).blk t).view.set ↔ ∀ a : Fin 2, win0_2.index t a * S512x4096.size a ≤ (i a).val
      ∧ (i a).val < win0_2.index t a * S512x4096.size a + S512x4096.size a := by
  show i ∈ ((View.whole main_v1).slice (win0_2.rect t)).set ↔ _
  rw [View.set_slice_whole, Rect.mem_set_unit]
  exact Iff.rfl

/-- Every entry `(r, j)` of the result lies in the block of point `r / 512`: the 16 bands of 512 rows are all 8192
    rows. -/
theorem covered (i : S8192x4096.Idx) :
    ∃ t : Fin cfg0.N, (cfg0.win 2).flush t = true ∧ i ∈ ((cfg0.win 2).blk t).view.set := by
  have hi0 : (i 0).val < 8192 := (i 0).isLt
  have hi1 : (i 1).val < 4096 := (i 1).isLt
  have hN : cfg0.N = 16 := N_0
  let t : Fin cfg0.N := ⟨(i 0).val / 512, by omega⟩
  obtain ⟨-, -, -, -, e4, e5⟩ := block_positions t
  have e4' : win0_2.index t (0 : Fin 2) = (i 0).val / 512 := e4
  refine ⟨t, flush0_2 t, ?_⟩
  rw [mem_block]
  intro a
  match a with
  | ⟨0, _⟩ =>
    show win0_2.index t (0 : Fin 2) * 512 ≤ (i 0).val ∧ (i 0).val < win0_2.index t (0 : Fin 2) * 512 + 512; omega
  | ⟨1, _⟩ =>
    show win0_2.index t (1 : Fin 2) * 4096 ≤ (i 1).val ∧ (i 1).val < win0_2.index t (1 : Fin 2) * 4096 + 4096; omega

/-- After all 16 points the result array is the column-scaled matrix. -/
theorem final (c : Dev nD) : (dats m 0 c).arrAt 2 cfg0.N
    = scaled (m ((c : Thread nD τ).loc main_arg0)) (m ((c : Thread nD τ).loc main_arg1)) :=
  (dats m 0 c).arrAt_eq_of_cover 2 _ (fun t _ => flushed_eq m c t) covered

/-- Every fair execution of the kernel's program ends with the result at the column-scaled matrix and both inputs as
    they were. -/
theorem run : θ_run defs (onTc (τ := τ) (main (F := F))) ⟨m, fun _ => 0, ρ⟩ fun r => ∀ c : Dev nD,
      r.2.mem ((c : Thread nD τ).loc main_v1)
        = scaled (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Scale

end
-- ==== Proof.RefScale.lean ====
/-
  The reference's side. It repeats the weight vector first as one row of 4096 and then down all 8192 rows, and
  multiplies the matrix by that entry by entry. Reading the two repetitions at an entry `(r, j)` lands on `w[j]`, so
  the product there is `x[r, j] * w[j]`: the column-scaled matrix.
-/
import proofs.«425088_j20194936226016_3_alg».proof.Proof.Gen.ReferenceIdeal.Read
import proofs.«425088_j20194936226016_3_alg».proof.Proof.Spec

noncomputable section

namespace Cert.ReferenceIdeal.Scale

open Cert.ReferenceIdeal Cert.ReferenceIdeal.Gen Idealize.ShloMosaic Idealize.ShloMosaic.TcCoe Idealize.SL.Sem
open Cert.ColumnScale (scaled col)

variable {F : FTy → Type} [FloatOps F]

/-- The reference's product, entry by entry, is the matrix entry times the weight of its column. -/
theorem product_eq (x : S8192x4096.Idx → Elt F .f32) (w : S4096.Idx → Elt F .f32) :
    Read.val_main_v2 (F := F) x w = scaled x w := by
  funext i
  rw [Read.val_main_v2_apply, Read.val_main_v1_apply, Read.val_main_v0_apply]
  unfold scaled
  congr 2

end Cert.ReferenceIdeal.Scale

end
-- ==== Proof.lean ====
/-
  The kernel multiplies every column of an 8192 × 4096 matrix by that column's weight, 512 rows at a grid point; the
  reference does the same on the whole matrix at once. Both results are, entry by entry, `x[r, j] * w[j]`
  (`Cert.ColumnScale.scaled`): the kernel's by reading each point's block product back through the block's rows
  and noting that the 16 bands of 512 rows cover the matrix; the reference's by reading its two repetitions of the
  weight vector at an entry. The two are then one function of inputs that agree, with no arithmetic law in between,
  so the finiteness of the inputs is not used. The idealized kernel is the kernel's own text, so nothing is owed for
  that step. The three programs run to the end without fault and leave their inputs alone: for the two kernels by
  the imported generated frame modules, for the reference by its imported generated run.
-/
import proofs.«425088_j20194936226016_3_alg».proof.Defs
import proofs.«425088_j20194936226016_3_alg».proof.Proof.Gen.Kernel
import proofs.«425088_j20194936226016_3_alg».proof.Proof.Gen.Kernel.Skeleton
import proofs.«425088_j20194936226016_3_alg».proof.Proof.Gen.Kernel.Launch
import proofs.«425088_j20194936226016_3_alg».proof.Proof.Gen.Kernel.Points
import proofs.«425088_j20194936226016_3_alg».proof.Proof.Gen.Kernel.Frame
import proofs.«425088_j20194936226016_3_alg».proof.Proof.Gen.KernelIdeal
import proofs.«425088_j20194936226016_3_alg».proof.Proof.Gen.KernelIdeal.Skeleton
import proofs.«425088_j20194936226016_3_alg».proof.Proof.Gen.KernelIdeal.Launch
import proofs.«425088_j20194936226016_3_alg».proof.Proof.Gen.KernelIdeal.Points
import proofs.«425088_j20194936226016_3_alg».proof.Proof.Gen.KernelIdeal.Frame
import proofs.«425088_j20194936226016_3_alg».proof.Proof.Gen.ReferenceIdeal
import proofs.«425088_j20194936226016_3_alg».proof.Proof.Gen.Pre_finite_inputs
import proofs.«425088_j20194936226016_3_alg».proof.Proof.Gen.KernelIdeal.Value
import proofs.«425088_j20194936226016_3_alg».proof.Proof.Gen.ReferenceIdeal.Run
import proofs.«425088_j20194936226016_3_alg».proof.Proof.Gen.ReferenceIdeal.Read
import proofs.«425088_j20194936226016_3_alg».proof.Proof.Spec
import proofs.«425088_j20194936226016_3_alg».proof.Proof.KernelScale
import proofs.«425088_j20194936226016_3_alg».proof.Proof.RefScale
import Idealize.ShloMosaic.Adequacy
import Idealize.ShloMosaic.Init

noncomputable section

namespace Cert.Proof

open Idealize.ShloMosaic Idealize.ShloMosaic.TcCoe Idealize.SL.Sem

/-- The kernel as printed runs to the end, faults nowhere and leaves its two inputs unchanged. -/
theorem frame_kernel : Cert.frame_Kernel := fun m ρ _ => Cert.Kernel.Gen.frame m ρ

/-- So does the idealized kernel. -/
theorem frame_kernel_ideal : Cert.frame_KernelIdeal := fun m ρ _ => Cert.KernelIdeal.Gen.frame m ρ

/-- So does the reference: its run with the statement about the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From inputs that agree, the idealized kernel and the reference both end with the column-scaled matrix of those
    inputs as their result: the kernel by its blocks, the reference by reading its product at an entry. -/
theorem algebraic : Cert.algebraic_KernelIdeal_ReferenceIdeal := by
  intro m ρ m' ρ' _ hagree
  refine ⟨fun c => Cert.ColumnScale.scaled
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Scale.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v2_eq, Cert.ReferenceIdeal.Scale.product_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
